-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S4x2048x4x256 : Shape := ⟨4, ![4, 2048, 4, 256]⟩
abbrev S4x4x2048x256 : Shape := ⟨4, ![4, 4, 2048, 256]⟩
abbrev S4096x256 : Shape := ⟨2, ![4096, 256]⟩
abbrev S1x1x512x256 : Shape := ⟨4, ![1, 1, 512, 256]⟩
abbrev S512x256 : Shape := ⟨2, ![512, 256]⟩
abbrev S512x4096 : Shape := ⟨2, ![512, 4096]⟩

abbrev nBuf : Space → Nat
  | .hbm => 20
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4x2048x1024, .bf16⟩
  | .hbm, ⟨8, _⟩ => ⟨S4x2048x4x256, .bf16⟩
  | .hbm, ⟨9, _⟩ => ⟨S4x4x2048x256, .bf16⟩
  | .hbm, ⟨10, _⟩ => ⟨S4x2048x4x256, .f32⟩
  | .hbm, ⟨11, _⟩ => ⟨S4x4x2048x256, .f32⟩
  | .hbm, ⟨12, _⟩ => ⟨S4096x256, .f32⟩
  | .hbm, ⟨13, _⟩ => ⟨S4096x256, .bf16⟩
  | .hbm, ⟨14, _⟩ => ⟨S1024x1024, .f32⟩
  | .hbm, ⟨15, _⟩ => ⟨S4096x256, .f32⟩
  | .hbm, ⟨16, _⟩ => ⟨S4096x256, .bf16⟩
  | .hbm, ⟨17, _⟩ => ⟨S4x4x2048x256, .f32⟩
  | .hbm, ⟨18, _⟩ => ⟨S4x2048x4x256, .f32⟩
  | .hbm, ⟨19, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S4096x256, .bf16⟩
  | .local _ .vmem, ⟨9, _⟩ => ⟨S4096x256, .bf16⟩
  | .local _ .vmem, ⟨10, _⟩ => ⟨S1x1x512x256, .f32⟩
  | .local _ .vmem, ⟨11, _⟩ => ⟨S1x1x512x256, .f32⟩
  | .local _ .vmem, ⟨12, _⟩ => ⟨S1x1x512x256, .f32⟩
  | .local _ .vmem, ⟨13, _⟩ => ⟨S1x1x512x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S4x2048x1024_S4x2048x4x256 : S4x2048x1024.ShapeCasts S4x2048x4x256
  transposes_S4x2048x4x256_S4x4x2048x256_0_2_1_3 : S4x2048x4x256.Transposes [0, 2, 1, 3] S4x4x2048x256
  shapeCasts_S1024x1024_S4096x256 : S1024x1024.ShapeCasts S4096x256
  transposes_S1024x1024_S1024x1024_1_0 : S1024x1024.Transposes [1, 0] S1024x1024
  inb_S1x1x512x256_S1x1x512x256_0_0_0_0 : ∀ a, (![0, 0, 0, 0] : Fin 4 → Nat) a + S1x1x512x256.size a ≤ S1x1x512x256.size a
  h_S1x1x512x256 : 0 < S1x1x512x256.numel
  shapeCasts_S1x1x512x256_S512x256 : S1x1x512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S512x256_S1x1x512x256 : S512x256.ShapeCasts S1x1x512x256
  transposes_S4x4x2048x256_S4x2048x4x256_0_2_1_3 : S4x4x2048x256.Transposes [0, 2, 1, 3] S4x2048x4x256
  shapeCasts_S4x2048x4x256_S4x2048x1024 : S4x2048x4x256.ShapeCasts S4x2048x1024
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x256.size a ≤ S4x4x2048x256.size a
  hwx1_0 : ∀ i : grid1.Coords, EltTy.bits .bf16 = 32 ∨ (Rect.block (s := S4x4x2048x256) S1x1x512x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x256.size a ≤ S4x4x2048x256.size a
  hwx1_3 : ∀ i : grid1.Coords, EltTy.bits .f32 = 32 ∨ (Rect.block (s := S4x4x2048x256) S1x1x512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x256.size a ≤ S4x4x2048x256.size a
  hwx1_4 : ∀ i : grid1.Coords, EltTy.bits .f32 = 32 ∨ (Rect.block (s := S4x4x2048x256) S1x1x512x256.size (cc1_transform_4 i) (hinb1_4 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4x256 : Shape := ⟨4, ![4, 2048, 4, 256]⟩
abbrev S4x4x2048x256 : Shape := ⟨4, ![4, 4, 2048, 256]⟩
abbrev S4096x256 : Shape := ⟨2, ![4096, 256]⟩
abbrev S4x4x2048x4096 : Shape := ⟨4, ![4, 4, 2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x4x256, .f32⟩
  | .hbm, ⟨35, _⟩ => ⟨S4x4x2048x256, .f32⟩
  | .hbm, ⟨36, _⟩ => ⟨S4096x256, .f32⟩
  | .hbm, ⟨37, _⟩ => ⟨S1024x1024, .f32⟩
  | .hbm, ⟨38, _⟩ => ⟨S4096x256, .f32⟩
  | .hbm, ⟨39, _⟩ => ⟨S4x4x2048x4096, .f32⟩
  | .hbm, ⟨40, _⟩ => ⟨S_, .f32⟩
  | .hbm, ⟨41, _⟩ => ⟨S4x4x2048x4096, .f32⟩
  | .hbm, ⟨42, _⟩ => ⟨S4x4x2048x4096, .f32⟩
  | .hbm, ⟨43, _⟩ => ⟨S4x4x2048x4096, .f32⟩
  | .hbm, ⟨44, _⟩ => ⟨S4x4x2048x256, .f32⟩
  | .hbm, ⟨45, _⟩ => ⟨S4x2048x4x256, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x4x256 : S4x2048x1024.ShapeCasts S4x2048x4x256
  transposes_S4x2048x4x256_S4x4x2048x256_0_2_1_3 : S4x2048x4x256.Transposes [0, 2, 1, 3] S4x4x2048x256
  shapeCasts_S1024x1024_S4096x256 : S1024x1024.ShapeCasts S4096x256
  transposes_S1024x1024_S1024x1024_1_0 : S1024x1024.Transposes [1, 0] S1024x1024
  bcast_S_S4x4x2048x4096 : S_.BroadcastsInDim S4x4x2048x4096 (![] : Fin 0 → Fin S4x4x2048x4096.rank)
  transposes_S4x4x2048x256_S4x2048x4x256_0_2_1_3 : S4x4x2048x256.Transposes [0, 2, 1, 3] S4x2048x4x256
  shapeCasts_S4x2048x4x256_S4x2048x1024 : S4x2048x4x256.ShapeCasts S4x2048x1024
  dot_S4x4x2048x256_S4096x256_S4x4x2048x4096_3_1_012_0_n_n_wf : DotDims.WF S4x4x2048x256 S4096x256 S4x4x2048x4096 [3] [1] [0, 1, 2] [0] [] []
  dot_S4x4x2048x4096_S4096x256_S4x4x2048x256_3_0_012_1_n_n_wf : DotDims.WF S4x4x2048x4096 S4096x256 S4x4x2048x256 [3] [0] [0, 1, 2] [1] [] []

variable [Facts₀]

def dot_S4x4x2048x256_S4096x256_S4x4x2048x4096_3_1_012_0_n_n : DotDims S4x4x2048x256 S4096x256 S4x4x2048x4096 where
  lhsContracting := [3]
  rhsContracting := [1]
  lhsNonContracting := [0, 1, 2]
  rhsNonContracting := [0]
  lhsBatch := []
  rhsBatch := []
  wf := dot_S4x4x2048x256_S4096x256_S4x4x2048x4096_3_1_012_0_n_n_wf
def dot_S4x4x2048x4096_S4096x256_S4x4x2048x256_3_0_012_1_n_n : DotDims S4x4x2048x4096 S4096x256 S4x4x2048x256 where
  lhsContracting := [3]
  rhsContracting := [0]
  lhsNonContracting := [0, 1, 2]
  rhsNonContracting := [1]
  lhsBatch := []
  rhsBatch := []
  wf := dot_S4x4x2048x4096_S4096x256_S4x4x2048x256_3_0_012_1_n_n_wf

class Facts : Prop extends Facts₀ where

variable [Facts]
-- ==== Proof.Spec.lean ====
/-
  What the two programs compute, index by index, over the extended reals.

  Layer norm of one row of 1024 entries: the mean μ is the row's sum divided by 1024, the variance the sum of the
  squares (x − μ)² divided by 1024, and the entry at channel c is (x − μ) · rsqrt(var + ε) · g[c] + β[c].
  In the arrays the gain and the bias enter as rows of shape [1, 1024].

  The 1024 channels are four heads of 256: channel h·256 + d is entry d of head h. A weight matrix [1024, 1024]
  read row-major as [4096, 256] has its entry (s, d) at flat position s·256 + d, that is at row (s·256 + d) / 1024 and
  column (s·256 + d) % 1024; its transpose read the same way swaps the two.

  The relu²-weighted sum of one query row q of 256 entries: the score against key row s is Σ_d q[d] · k[s, d]; its weight
  is max(score, 0)²; the output at entry d is r + Σ_s weight(s) · v[s, d], r the residual's entry. The result at
  (b, t, c) is that output for head c / 256 at entry c % 256.
-/
import Idealize.ShloMosaic.Lib.ValueIdx
import Idealize.ShloMosaic.PureOps.Ideal.Laws

noncomputable section

open scoped BigOperators

namespace Cert.Spec

open Idealize.ShloMosaic Idealize.ShloMosaic.ValueIdx

/-- Activations [batch, time, channel]. -/
abbrev SX : Shape := ⟨3, ![4, 2048, 1024]⟩
/-- A weight matrix. -/
abbrev SW : Shape := ⟨2, ![1024, 1024]⟩
/-- A per-channel vector, and the same as a row. -/
abbrev SV : Shape := ⟨1, ![1024]⟩
abbrev SR : Shape := ⟨2, ![1, 1024]⟩
/-- Activations split by head [batch, head, time, entry]. -/
abbrev SQ : Shape := ⟨4, ![4, 4, 2048, 256]⟩
/-- Key or value rows [4096, 256]. -/
abbrev SK : Shape := ⟨2, ![4096, 256]⟩

/-! ## Layer norm of a row -/

/-- The mean of a row: its sum divided by 1024. -/
def rowMean (row : Fin 1024 → EReal) : EReal :=
  Ideal.div (∑ k : Fin 1024, row k) (Ideal.ofBits .f32 0x44800000#32)

/-- The variance of a row: the mean of the squared deviations. -/
def rowVar (row : Fin 1024 → EReal) : EReal :=
  Ideal.div (∑ k : Fin 1024, (row k - rowMean row) * (row k - rowMean row)) (Ideal.ofBits .f32 0x44800000#32)

/-- Layer norm of a row at channel c. -/
def lnRow (row g β : Fin 1024 → EReal) (c : Fin 1024) : EReal :=
  (row c - rowMean row) * Ideal.rsqrt (rowVar row + Ideal.ofBits .f32 0x3727C5AC#32) * g c + β c

/-- Layer norm of the array at (b, t, c), gain and bias given as rows [1, 1024]. -/
def lnAt (x : SX.Idx → EReal) (g β : SR.Idx → EReal) (b : Fin 4) (t : Fin 2048) (c : Fin 1024) : EReal :=
  lnRow (fun k => x (ix3 b t k)) (fun k => g (ix2 0 k)) (fun k => β (ix2 0 k)) c

/-- Layer norm of the whole array. -/
def ln (x : SX.Idx → EReal) (g β : SR.Idx → EReal) : SX.Idx → EReal := fun j => lnAt x g β (j 0) (j 1) (j 2)

theorem ln_apply (x : SX.Idx → EReal) (g β : SR.Idx → EReal) (b : Fin 4) (t : Fin 2048) (c : Fin 1024) :
    ln x g β (ix3 b t c) = lnAt x g β b t c := rfl

/-! ## The relu²-weighted sum of a query row -/

/-- The score of a query row against key row s. -/
def rowScore (q : Fin 256 → EReal) (k : SK.Idx → EReal) (s : Fin 4096) : EReal :=
  ∑ d : Fin 256, q d * k (ix2 s d)

/-- The relu²-weighted sum of the value rows added onto the residual's entry r, at entry d. -/
def attnRow (q : Fin 256 → EReal) (k v : SK.Idx → EReal) (r : EReal) (d : Fin 256) : EReal :=
  r + ∑ s : Fin 4096,
    (max (rowScore q k s) (Ideal.ofBits .f32 0x00000000#32) * max (rowScore q k s) (Ideal.ofBits .f32 0x00000000#32)) * v (ix2 s d)

/-- The same for the arrays, at (b, h, t, d). -/
def attnAt (q : SQ.Idx → EReal) (k v : SK.Idx → EReal) (r : SQ.Idx → EReal) (b h : Fin 4) (t : Fin 2048) (d : Fin 256) : EReal :=
  attnRow (fun d' => q (ix4 b h t d')) k v (r (ix4 b h t d)) d

/-- The same as an array [batch, head, time, entry]. -/
def attn (q : SQ.Idx → EReal) (k v : SK.Idx → EReal) (r : SQ.Idx → EReal) : SQ.Idx → EReal :=
  fun i => attnAt q k v r (i 0) (i 1) (i 2) (i 3)

theorem attn_apply (q : SQ.Idx → EReal) (k v : SK.Idx → EReal) (r : SQ.Idx → EReal) (b h : Fin 4) (t : Fin 2048) (d : Fin 256) :
    attn q k v r (ix4 b h t d) = attnAt q k v r b h t d := rfl

/-! ## Heads, and a matrix read as [4096, 256] -/

/-- Channel h·256 + d. -/
def merge (h : Fin 4) (d : Fin 256) : Fin 1024 := ⟨h.val * 256 + d.val, by omega⟩
/-- The head and the entry of a channel. -/
def headOf (c : Fin 1024) : Fin 4 := ⟨c.val / 256, by omega⟩
def entryOf (c : Fin 1024) : Fin 256 := ⟨c.val % 256, by omega⟩

theorem merge_head_entry (c : Fin 1024) : merge (headOf c) (entryOf c) = c :=
  Fin.ext (by show c.val / 256 * 256 + c.val % 256 = c.val; omega)

/-- [batch, time, channel] viewed by head: entry (b, h, t, d) is channel h·256 + d of row (b, t). -/
def toHeads (y : SX.Idx → EReal) : SQ.Idx → EReal := fun i => y (ix3 (i 0) (i 2) (merge (i 1) (i 3)))

theorem toHeads_apply (y : SX.Idx → EReal) (b h : Fin 4) (t : Fin 2048) (d : Fin 256) :
    toHeads y (ix4 b h t d) = y (ix3 b t (merge h d)) := rfl

/-- Where entry (s, d) of the [4096, 256] reading of a matrix sits in the matrix. -/
def rowPos (s : Fin 4096) (d : Fin 256) : Fin 1024 := ⟨(s.val * 256 + d.val) / 1024, by omega⟩
def colPos (s : Fin 4096) (d : Fin 256) : Fin 1024 := ⟨(s.val * 256 + d.val) % 1024, by omega⟩

/-- A matrix read row-major as [4096, 256]. -/
def rows (w : SW.Idx → EReal) : SK.Idx → EReal := fun i => w (ix2 (rowPos (i 0) (i 1)) (colPos (i 0) (i 1)))
/-- Its transpose read the same way. -/
def rowsT (w : SW.Idx → EReal) : SK.Idx → EReal := fun i => w (ix2 (colPos (i 0) (i 1)) (rowPos (i 0) (i 1)))

theorem rows_apply (w : SW.Idx → EReal) (s : Fin 4096) (d : Fin 256) : rows w (ix2 s d) = w (ix2 (rowPos s d) (colPos s d)) := rfl
theorem rowsT_apply (w : SW.Idx → EReal) (s : Fin 4096) (d : Fin 256) : rowsT w (ix2 s d) = w (ix2 (colPos s d) (rowPos s d)) := rfl

/-- A vector as a row. -/
def rowOf (g : SV.Idx → EReal) : SR.Idx → EReal := fun i => g (ix1 (i 1))

theorem rowOf_apply (g : SV.Idx → EReal) (u : Fin 1) (c : Fin 1024) : rowOf g (ix2 u c) = g (ix1 c) := rfl

/-! ## The whole computation -/

/-- Layer norm, split by head, relu²-weighted sum against the two weight matrices, residual added, heads merged back. -/
def result (x : SX.Idx → EReal) (wfc wproj : SW.Idx → EReal) (g β : SV.Idx → EReal) : SX.Idx → EReal := fun j =>
  attnAt (toHeads (ln x (rowOf g) (rowOf β))) (rows wfc) (rowsT wproj) (toHeads x) (j 0) (headOf (j 2)) (j 1) (entryOf (j 2))

theorem result_apply (x : SX.Idx → EReal) (wfc wproj : SW.Idx → EReal) (g β : SV.Idx → EReal) (b : Fin 4) (t : Fin 2048) (c : Fin 1024) :
    result x wfc wproj g β (ix3 b t c)
      = attnAt (toHeads (ln x (rowOf g) (rowOf β))) (rows wfc) (rowsT wproj) (toHeads x) b (headOf c) t (entryOf c) := rfl

end Cert.Spec

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.LnBody.lean ====
/-
  The layer-norm kernel body's stored value, read at an index of the block: entry (r, c) of a block of 512 rows is the
  layer norm of row r of the loaded block with the loaded gain and bias rows.

  Read at (p, c) of a matrix [a, b]: the lane sum kept as a column is the sum of row p; divided by a constant w and
  spread back across the row it is that sum over w; the entry's deviation is the entry minus that quotient; the second
  lane sum, of the squared deviations, is the sum over the row of the squares. The reciprocal square root acts entry by
  entry, the gain and the bias rows [1, b] spread over the a rows read their entry at c, the narrowing of the format
  is the identity on extended reals, and the unit axis in front changes no entry.
-/
import proofs.«155917_j56023553409274_1_alg».proof.Proof.Gen.KernelIdeal.Skeleton
import proofs.«155917_j56023553409274_1_alg».proof.Proof.Spec
import proofs.«155917_j56023553409274_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LnBody

open Idealize.ShloMosaic Idealize.ShloMosaic.ValueIdx Cert.KernelIdeal Cert.KernelIdeal.Gen

variable {a b : ℕ}

/-- A reciprocal square root of a vector acts entry by entry. -/
theorem rsqrt_at {s : Shape} (v : FVec Ideal s .f32) (i : s.Idx) : rsqrt v i = Ideal.rsqrt (v i) := rfl

/-- The column of row sums, read at (p, u), is the sum of row p. -/
theorem sum_col (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ x 0x00000000#32 h hφ hacc) hc (ix2 p u)
      = ∑ k : Fin b, x (ix2 p k) :=
  (Cert.LibKeepdims.cast_vec_col _ hc p u).trans (Cert.LibKeepdims.sum_row x h hφ hacc p)

/-- The column of row sums divided by a constant w and spread across the row reads, at (p, c), the sum of row p over w. -/
theorem mean_bcast (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (w : Ideal .f32) (p : Fin a) (c : Fin b) :
    broadcastTo ⟨2, ![a, b]⟩
        (divf (shapeCast ⟨2, ![a, 1]⟩ (multiReduction .add [1] ⟨1, ![a]⟩ x 0x00000000#32 h hφ hacc) hc) (broadcast ⟨2, ![a, 1]⟩ w)) hb (ix2 p c)
      = Ideal.div (∑ k : Fin b, x (ix2 p k)) w := by
  rw [Cert.LibKeepdims.bcast_col, divf_apply, sum_col, broadcast_apply]

/-- An entry's deviation from its row's mean, the mean taken as the row's sum over the constant w. -/
theorem centered_at (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (w : Ideal .f32) (p : Fin a) (c : Fin b) :
    subf x (broadcastTo ⟨2, ![a, b]⟩
        (divf (shapeCast ⟨2, ![a, 1]⟩ (multiReduction .add [1] ⟨1, ![a]⟩ x 0x00000000#32 h hφ hacc) hc) (broadcast ⟨2, ![a, 1]⟩ w)) hb) (ix2 p c)
      = x (ix2 p c) - Ideal.div (∑ k : Fin b, x (ix2 p k)) w := by
  rw [subf_apply, mean_bcast]

/-- The column of the rows' sums of squared deviations, read at (p, u), is the sum over row p of the squares. -/
theorem sqdev_col (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (w : Ideal .f32) (p : Fin a) (u : Fin 1) :
    shapeCast ⟨2, ![a, 1]⟩ (multiReduction .add [1] ⟨1, ![a]⟩
        (mulf
          (subf x (broadcastTo ⟨2, ![a, b]⟩
            (divf (shapeCast ⟨2, ![a, 1]⟩ (multiReduction .add [1] ⟨1, ![a]⟩ x 0x00000000#32 h hφ hacc) hc) (broadcast ⟨2, ![a, 1]⟩ w)) hb))
          (subf x (broadcastTo ⟨2, ![a, b]⟩
            (divf (shapeCast ⟨2, ![a, 1]⟩ (multiReduction .add [1] ⟨1, ![a]⟩ x 0x00000000#32 h hφ hacc) hc) (broadcast ⟨2, ![a, 1]⟩ w)) hb)))
        0x00000000#32 h hφ hacc) hc (ix2 p u)
      = ∑ k : Fin b, (x (ix2 p k) - Ideal.div (∑ j : Fin b, x (ix2 p j)) w) * (x (ix2 p k) - Ideal.div (∑ j : Fin b, x (ix2 p j)) w) :=
  (sum_col _ h hφ hacc hc p u).trans (Finset.sum_congr rfl fun k _ => by rw [mulf_apply, centered_at])

theorem ln_payload (x0 : Vec Ideal S1x512x1024 .f32) (x1 x2 : Vec Ideal S1x1024 .f32) (u : Fin 1) (r : Fin 512) (c : Fin 1024) :
    k0_pay1 (F := Ideal) x0 x1 x2 (ix3 u r c)
      = Cert.Spec.lnRow (fun k => x0 (ix3 (0 : Fin 1) r k)) (fun k => x1 (ix2 (0 : Fin 1) k)) (fun k => x2 (ix2 (0 : Fin 1) k)) c := by
  unfold k0_pay1
  dsimp only
  -- the outer layout and the entrywise operations, outermost first; the two lane sums by the lemmas above
  rw [shapeCast_ab_1ab_apply, truncf_apply, addf_apply, mulf_apply, mulf_apply, centered_at,
    Cert.LibKeepdims.bcast_col, rsqrt_at, addf_apply, divf_apply, sqdev_col, broadcast_apply, broadcast_apply,
    broadcastTo_1b_ab_apply, broadcastTo_1b_ab_apply, shapeCast_self, shapeCast_self]
  -- entry (r, k) of the block with its unit axis dropped is entry (0, r, k) of the block
  simp only [shapeCast_1ab_ab_apply]
  rfl

end Cert.KernelIdeal.LnBody

end
-- ==== Proof.Region0.lean ====
/-
  The layer-norm region: what its output array holds after the run.

  The grid is 4 × 4 points; point (b, τ) loads rows 512·τ … 512·τ + 511 of batch b of the activations (all 1024 channels)
  and the gain and bias rows, and writes the same rows of the output. Each written row is the layer norm of the loaded
  row, so the block written at a point is that point's block of ONE whole-array function, the layer norm of the
  activations as the region finds them; the 16 blocks tile the array.
-/
import proofs.«155917_j56023553409274_1_alg».proof.Proof.Gen.KernelIdeal.Frame
import proofs.«155917_j56023553409274_1_alg».proof.Proof.LnBody
import proofs.«155917_j56023553409274_1_alg».proof.Proof.Spec
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- One block's entry is the whole array's layer norm at the matching index, when the loaded row is the array's row
    and the loaded gain and bias rows are the arrays'. -/
theorem block_ln (X : Cert.Spec.SX.Idx → EReal) (g β : Cert.Spec.SR.Idx → EReal)
    (x0 : Vec Ideal S1x512x1024 .f32) (x1 x2 : Vec Ideal S1x1024 .f32) (y : S1x512x1024.Idx) (i : S4x2048x1024.Idx)
    (hc : (i 2).val = (y 2).val)
    (h0 : ∀ k : Fin 1024, x0 (ix3 (0 : Fin 1) ⟨(y 1).val, (y 1).isLt⟩ k) = X (ix3 ⟨(i 0).val, (i 0).isLt⟩ ⟨(i 1).val, (i 1).isLt⟩ k))
    (h1 : ∀ k : Fin 1024, x1 (ix2 (0 : Fin 1) k) = g (ix2 (0 : Fin 1) k))
    (h2 : ∀ k : Fin 1024, x2 (ix2 (0 : Fin 1) k) = β (ix2 (0 : Fin 1) k)) :
    k0_pay1 (F := Ideal) x0 x1 x2 y = Cert.Spec.ln X g β i := by
  obtain ⟨u, r, cc, rfl⟩ : ∃ (u : Fin 1) (r : Fin 512) (cc : Fin 1024), y = ix3 u r cc := ⟨y 0, y 1, y 2, eq_ix3 y⟩
  obtain ⟨b, T, c2, rfl⟩ : ∃ (b : Fin 4) (T : Fin 2048) (c2 : Fin 1024), i = ix3 b T c2 := ⟨i 0, i 1, i 2, eq_ix3 i⟩
  obtain rfl : c2 = cc := Fin.ext hc
  have h0' : ∀ k : Fin 1024, x0 (ix3 (0 : Fin 1) r k) = X (ix3 b T k) := h0
  rw [Cert.KernelIdeal.LnBody.ln_payload, Cert.Spec.ln_apply]
  unfold Cert.Spec.lnAt
  simp only [h0', h1, h2]

/-- The printed index maps, decided over the grid: the activations' and the output's blocks move together over batch and
    row tile and span all channels; the gain and bias rows are fetched whole. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every (batch, row tile) pair is some point's. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- What point t writes back is its block of the layer norm of the arrays as the region finds them. -/
theorem flushed_eq (c : Dev nD) (t : Fin cfg0.N) :
    (dat0 (F := Ideal) V c).flushed 3 t
      = ((cfg0.win 3).blk t).view.read (Elt Ideal) (Cert.Spec.ln (V c main_arg0) (V c main_v0) (V c main_v1)) := by
  show (cfg0.win 3).cut (grid0.coords t) ((dat0 (F := Ideal) V c).after 3 t) = _
  rw [after0_3]
  unfold out0_3
  rw [View.canon_unit_zero zero3]
  simp only [View.ld_unit_zero (S := S1x512x1024) zero3, View.ld_unit_zero (S := S1x1024) zero2]
  obtain ⟨e00, e01, e02, e32, e10, e11, e20, e21, l0, l1⟩ := idx_facts t
  funext y
  refine block_ln (V c main_arg0) (V c main_v0) (V c main_v1) (iblk0 V c 0 t) (iblk0 V c 1 t) (iblk0 V c 2 t) y
    (((cfg0.win 3).blk t).view.emb y) ?_ ?_ ?_ ?_
  · show win0_3.index t (2 : Fin 3) * 1024 + 1 * (y 2).val = (y 2).val
    rw [e32]; omega
  · intro k
    unfold iblk0
    rw [View.read_apply]
    show V c main_arg0 _ = V c main_arg0 _
    refine congrArg (V c main_arg0) (funext fun a => Fin.ext ?_)
    match a with
    | ⟨0, _⟩ => show win0_0.index t (0 : Fin 3) * 1 + 1 * 0 = win0_3.index t (0 : Fin 3) * 1 + 1 * (y 0).val
                have hy : (y 0).val < 1 := (y 0).isLt
                rw [e00]; omega
    | ⟨1, _⟩ => show win0_0.index t (1 : Fin 3) * 512 + 1 * (y 1).val = win0_3.index t (1 : Fin 3) * 512 + 1 * (y 1).val
                rw [e01]
    | ⟨2, _⟩ => show win0_0.index t (2 : Fin 3) * 1024 + 1 * k.val = k.val
                rw [e02]; omega
  · intro k
    unfold iblk0
    rw [View.read_apply]
    show V c main_v0 _ = V c main_v0 _
    refine congrArg (V c main_v0) (funext fun a => Fin.ext ?_)
    match a with
    | ⟨0, _⟩ => show win0_1.index t (0 : Fin 2) * 1 + 1 * 0 = 0
                rw [e10]
    | ⟨1, _⟩ => show win0_1.index t (1 : Fin 2) * 1024 + 1 * k.val = k.val
                rw [e11]; omega
  · intro k
    unfold iblk0
    rw [View.read_apply]
    show V c main_v1 _ = V c main_v1 _
    refine congrArg (V c main_v1) (funext fun a => Fin.ext ?_)
    match a with
    | ⟨0, _⟩ => show win0_2.index t (0 : Fin 2) * 1 + 1 * 0 = 0
                rw [e20]
    | ⟨1, _⟩ => show win0_2.index t (1 : Fin 2) * 1024 + 1 * k.val = k.val
                rw [e21]; omega

/-- An index of the output array is in point t's block iff each coordinate is in the block's range on its axis. -/
theorem mem_blk (t : Fin cfg0.N) (i : S4x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v2).slice (win0_3.rect t)).set ↔ _
  rw [View.set_slice_whole, Rect.mem_set_unit]
  exact Iff.rfl

/-- The 16 blocks cover the output array: row T of batch b lies in the block of point (b, T / 512). -/
theorem cover (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The output array after the region: the layer norm of the activations with the gain and bias rows, all as the
    region finds them. -/
theorem array_eq (c : Dev nD) :
    (dat0 (F := Ideal) V c).arrAt 3 cfg0.N = Cert.Spec.ln (V c main_arg0) (V c main_v0) (V c main_v1) :=
  (dat0 (F := Ideal) V c).arrAt_eq_of_cover 3 _ (fun t _ => flushed_eq V c t) cover

end Cert.KernelIdeal.Region0

end
-- ==== Proof.AttnBody.lean ====
/-
  The attention kernel body's stored value, read at an index of the block: entry (r, d) of a block of 512 query rows is
  the relu²-weighted sum of the loaded value rows for query row r against the loaded key rows, added onto the residual.

  The body views the query block [1, 1, 512, 256] as a matrix q[512, 256], takes the scores q · kᵀ (contracting the
  256 entries of a query row with the 256 entries of a key row), weights each score by max(score, 0)², multiplies the
  weights [512, 4096] by the value rows [4096, 256] (contracting the 4096 rows), adds the residual block viewed the
  same way, and stores the sum as a block again. Each product is read at an index as a sum over its one contracted
  axis; each view keeps the row-major position.
-/
import proofs.«155917_j56023553409274_1_alg».proof.Proof.Gen.KernelIdeal.Skeleton
import proofs.«155917_j56023553409274_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnBody

open Idealize.ShloMosaic Idealize.ShloMosaic.ValueIdx Cert.KernelIdeal Cert.KernelIdeal.Gen

/-! ## The score product: contracting axis 1 of the query block with axis 1 of the key rows -/

theorem lhs_score_0 (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem lhs_score_1 (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
theorem rhs_score_0 (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem rhs_score_1 (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- Entry (r, s) of the score product into the zero accumulator is Σ_d a[r, d] · b[s, d]. -/
theorem score_apply (a : FVec Ideal S512x256 .bf16) (b : FVec Ideal S4096x256 .bf16) (r : Fin 512) (s : Fin 4096) :
    matmul dot_S512x256_S4096x256_S512x4096_1_1_0_0_n_n none a b (constant (F := Ideal) S512x4096 .f32 0x00000000#32) (ix2 r s)
      = ∑ d' : Fin 256, a (ix2 r d') * b (ix2 s d') := by
  refine (Ideal.matmul_constant_zero_apply dot_S512x256_S4096x256_S512x4096_1_1_0_0_n_n none a b (ix2 r s)).trans ?_
  rw [← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 r s) ((ValueIdx.contrEquiv1 dot_S512x256_S4096x256_S512x4096_1_1_0_0_n_n 256 rfl rfl).symm k) = ix2 r k := funext fun x => Fin.ext (by
    match x with
    | ⟨0, _⟩ => exact lhs_score_0 _ _
    | ⟨1, _⟩ => exact (lhs_score_1 _ _).trans hk)
  have er : dot_S512x256_S4096x256_S512x4096_1_1_0_0_n_n.rhsIdx (ix2 r s) ((ValueIdx.contrEquiv1 dot_S512x256_S4096x256_S512x4096_1_1_0_0_n_n 256 rfl rfl).symm k) = ix2 s k := funext fun x => Fin.ext (by
    match x with
    | ⟨0, _⟩ => exact rhs_score_0 _ _
    | ⟨1, _⟩ => exact (rhs_score_1 _ _).trans hk)
  rw [el, er]

/-! ## The weighted sum: contracting axis 1 of the weights with axis 0 of the value rows -/

theorem lhs_wsum_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_wsum_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_wsum_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_wsum_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Entry (r, d) of the weighted sum into the zero accumulator is Σ_s w[r, s] · v[s, d]. -/
theorem wsum_apply (w : FVec Ideal S512x4096 .bf16) (v : FVec Ideal S4096x256 .bf16) (r : Fin 512) (d : Fin 256) :
    matmul dot_S512x4096_S4096x256_S512x256_1_0_0_1_n_n none w v (constant (F := Ideal) S512x256 .f32 0x00000000#32) (ix2 r d)
      = ∑ s : Fin 4096, w (ix2 r s) * v (ix2 s d) := by
  refine (Ideal.matmul_constant_zero_apply dot_S512x4096_S4096x256_S512x256_1_0_0_1_n_n none w v (ix2 r d)).trans ?_
  rw [← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 r d) ((ValueIdx.contrEquiv1 dot_S512x4096_S4096x256_S512x256_1_0_0_1_n_n 4096 rfl rfl).symm k) = ix2 r k := funext fun x => Fin.ext (by
    match x with
    | ⟨0, _⟩ => exact lhs_wsum_0 _ _
    | ⟨1, _⟩ => exact (lhs_wsum_1 _ _).trans hk)
  have er : dot_S512x4096_S4096x256_S512x256_1_0_0_1_n_n.rhsIdx (ix2 r d) ((ValueIdx.contrEquiv1 dot_S512x4096_S4096x256_S512x256_1_0_0_1_n_n 4096 rfl rfl).symm k) = ix2 k d := funext fun x => Fin.ext (by
    match x with
    | ⟨0, _⟩ => exact (rhs_wsum_0 _ _).trans hk
    | ⟨1, _⟩ => exact rhs_wsum_1 _ _)
  rw [el, er]

/-! ## The two casts between the block [1, 1, 512, 256] and the matrix [512, 256] -/

/-- The block viewed as a matrix: entry (r, d) is the block's entry (0, 0, r, d). -/
theorem block_as_matrix {α : Type} (x : S1x1x512x256.Idx → α) (r : Fin 512) (d : Fin 256) :
    shapeCast S512x256 x shapeCasts_S1x1x512x256_S512x256 (ix2 r d) = x (ix4 (0 : Fin 1) (0 : Fin 1) r d) :=
  shapeCast_apply x shapeCasts_S1x1x512x256_S512x256 (ix2 r d) (ix4 (0 : Fin 1) (0 : Fin 1) r d)
    (by rw [Shape.rowMajor_val_four, Shape.rowMajor_val_two]
        show (((0 : Fin 1).val * 1 + (0 : Fin 1).val) * 512 + r.val) * 256 + d.val = r.val * 256 + d.val
        simp)

/-- The matrix stored as a block: entry (u, u', r, d), u and u' on axes of extent one, is the matrix's entry (r, d). -/
theorem matrix_as_block {α : Type} (y : S512x256.Idx → α) (u u' : Fin 1) (r : Fin 512) (d : Fin 256) :
    shapeCast S1x1x512x256 y shapeCasts_S512x256_S1x1x512x256 (ix4 u u' r d) = y (ix2 r d) :=
  shapeCast_apply y shapeCasts_S512x256_S1x1x512x256 (ix4 u u' r d) (ix2 r d)
    (by rw [Shape.rowMajor_val_four, Shape.rowMajor_val_two]
        have h0 : u.val < 1 := u.isLt
        have h1 : u'.val < 1 := u'.isLt
        show r.val * 256 + d.val = ((u.val * 1 + u'.val) * 512 + r.val) * 256 + d.val
        omega)

/-! ## The stored value at (u, u', r, d) -/

theorem attn_payload (x0 : Vec Ideal S1x1x512x256 .bf16) (x1 x2 : Vec Ideal S4096x256 .bf16) (x3 : Vec Ideal S1x1x512x256 .f32)
    (u u' : Fin 1) (r : Fin 512) (d : Fin 256) :
    k1_pay1 (F := Ideal) x0 x1 x2 x3 (ix4 u u' r d)
      = Cert.Spec.attnRow (fun d' => x0 (ix4 (0 : Fin 1) (0 : Fin 1) r d')) x1 x2 (x3 (ix4 (0 : Fin 1) (0 : Fin 1) r d)) d := by
  unfold k1_pay1
  rw [matrix_as_block, addf_apply, block_as_matrix, wsum_apply]
  unfold Cert.Spec.attnRow Cert.Spec.rowScore
  refine congrArg (x3 (ix4 (0 : Fin 1) (0 : Fin 1) r d) + ·) (Finset.sum_congr rfl fun s _ => ?_)
  rw [truncf_apply, mulf_apply, maximumf_apply, broadcast_apply, score_apply, shapeCast_self, shapeCast_self]
  have hq : ∀ d' : Fin 256, shapeCast S512x256 x0 shapeCasts_S1x1x512x256_S512x256 (ix2 r d') = x0 (ix4 (0 : Fin 1) (0 : Fin 1) r d') :=
    fun d' => block_as_matrix x0 r d'
  simp only [hq]
  rfl

end Cert.KernelIdeal.AttnBody

end
-- ==== Proof.Region1.lean ====
/-
  The attention region: what its output array holds after the run.

  The grid is 4 × 4 × 4 points; point (b, h, τ) loads query rows 512·τ … 512·τ + 511 of head h of batch b (256 entries
  each), the same rows of the residual, and the key and value rows whole, and writes the same rows of the output. Each
  written row is the relu²-weighted sum for the loaded query row added onto the residual row, so the block written at a
  point is that point's block of ONE whole-array function of the arrays as the region finds them; the 64 blocks tile
  the array.
-/
import proofs.«155917_j56023553409274_1_alg».proof.Proof.Gen.KernelIdeal.Frame
import proofs.«155917_j56023553409274_1_alg».proof.Proof.AttnBody
import proofs.«155917_j56023553409274_1_alg».proof.Proof.Spec
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero4 : (![0, 0, 0, 0] : Fin 4 → Nat) = fun _ => 0 := funext fun a => by fin_cases a <;> rfl
theorem zero2 : (![0, 0] : Fin 2 → Nat) = fun _ => 0 := funext fun a => by fin_cases a <;> rfl

/-- One block's entry is the whole arrays' weighted sum at the matching index, when the loaded query row and residual
    entry are the arrays' and the loaded key and value rows are the arrays themselves. -/
theorem block_attn (Q R : Cert.Spec.SQ.Idx → EReal) (K W : Cert.Spec.SK.Idx → EReal)
    (x0 : Vec Ideal S1x1x512x256 .bf16) (x1 x2 : Vec Ideal S4096x256 .bf16) (x3 : Vec Ideal S1x1x512x256 .f32)
    (y : S1x1x512x256.Idx) (i : S4x4x2048x256.Idx)
    (hd : (i 3).val = (y 3).val)
    (h0 : ∀ d' : Fin 256, x0 (ix4 (0 : Fin 1) (0 : Fin 1) ⟨(y 2).val, (y 2).isLt⟩ d')
      = Q (ix4 ⟨(i 0).val, (i 0).isLt⟩ ⟨(i 1).val, (i 1).isLt⟩ ⟨(i 2).val, (i 2).isLt⟩ d'))
    (h1 : ∀ (s : Fin 4096) (d' : Fin 256), x1 (ix2 s d') = K (ix2 s d'))
    (h2 : ∀ (s : Fin 4096) (d' : Fin 256), x2 (ix2 s d') = W (ix2 s d'))
    (h3 : x3 (ix4 (0 : Fin 1) (0 : Fin 1) ⟨(y 2).val, (y 2).isLt⟩ ⟨(y 3).val, (y 3).isLt⟩) = R i) :
    k1_pay1 (F := Ideal) x0 x1 x2 x3 y = Cert.Spec.attn Q K W R i := by
  obtain ⟨u, u', r, d, rfl⟩ : ∃ (u u' : Fin 1) (r : Fin 512) (d : Fin 256), y = ix4 u u' r d :=
    ⟨y 0, y 1, y 2, y 3, eq_ix4 y⟩
  obtain ⟨b, h, T, d2, rfl⟩ : ∃ (b h : Fin 4) (T : Fin 2048) (d2 : Fin 256), i = ix4 b h T d2 :=
    ⟨i 0, i 1, i 2, i 3, eq_ix4 i⟩
  obtain rfl : d2 = d := Fin.ext hd
  obtain rfl : x1 = K := funext fun j => by rw [eq_ix2 j]; exact h1 _ _
  obtain rfl : x2 = W := funext fun j => by rw [eq_ix2 j]; exact h2 _ _
  have h0' : ∀ d' : Fin 256, x0 (ix4 (0 : Fin 1) (0 : Fin 1) r d') = Q (ix4 b h T d') := h0
  have h3' : x3 (ix4 (0 : Fin 1) (0 : Fin 1) r d2) = R (ix4 b h T d2) := h3
  rw [Cert.KernelIdeal.AttnBody.attn_payload, Cert.Spec.attn_apply]
  unfold Cert.Spec.attnAt
  simp only [h0', h3']

/-- The printed index maps, decided over the grid: the query, residual and output blocks move together over batch, head
    and row tile and span all 256 entries; the key and value rows are fetched whole. -/
theorem idx_facts : ∀ t : Fin cfg1.N,
    win1_0.index t (0 : Fin 4) = win1_4.index t (0 : Fin 4) ∧ win1_0.index t (1 : Fin 4) = win1_4.index t (1 : Fin 4)
    ∧ win1_0.index t (2 : Fin 4) = win1_4.index t (2 : Fin 4) ∧ win1_0.index t (3 : Fin 4) = 0
    ∧ win1_3.index t (0 : Fin 4) = win1_4.index t (0 : Fin 4) ∧ win1_3.index t (1 : Fin 4) = win1_4.index t (1 : Fin 4)
    ∧ win1_3.index t (2 : Fin 4) = win1_4.index t (2 : Fin 4) ∧ win1_3.index t (3 : Fin 4) = 0
    ∧ win1_4.index t (3 : Fin 4) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every (batch, head, row tile) triple is some point's. -/
theorem idx_onto : ∀ (q0 q1 q2 : Fin 4), ∃ t : Fin cfg1.N, win1_4.index t = ![q0.val, q1.val, q2.val, 0] :=
  (by decide +kernel : ∀ (q0 q1 q2 : Fin 4), ∃ t : Fin grid1.N, win1_4.index t = ![q0.val, q1.val, q2.val, 0])

/-- What point t writes back is its block of the weighted sum of the arrays as the region finds them. -/
theorem flushed_eq (c : Dev nD) (t : Fin cfg1.N) :
    (dat1 (F := Ideal) V c).flushed 4 t
      = ((cfg1.win 4).blk t).view.read (Elt Ideal)
          (Cert.Spec.attn (V c main_v4) (V c main_v8) (V c main_v11) (V c main_v6)) := by
  show (cfg1.win 4).cut (grid1.coords t) ((dat1 (F := Ideal) V c).after 4 t) = _
  rw [after1_4]
  unfold out1_4
  rw [View.canon_unit_zero zero4]
  simp only [View.ld_unit_zero (S := S1x1x512x256) zero4, View.ld_unit_zero (S := S4096x256) zero2]
  obtain ⟨e00, e01, e02, e03, e30, e31, e32, e33, e43, e10, e11, e20, e21⟩ := idx_facts t
  funext y
  refine block_attn (V c main_v4) (V c main_v6) (V c main_v8) (V c main_v11)
    (iblk1 V c 0 t) (iblk1 V c 1 t) (iblk1 V c 2 t) (iblk1 V c 3 t) y (((cfg1.win 4).blk t).view.emb y) ?_ ?_ ?_ ?_ ?_
  · show win1_4.index t (3 : Fin 4) * 256 + 1 * (y 3).val = (y 3).val
    rw [e43]; omega
  · intro d'
    unfold iblk1
    rw [View.read_apply]
    show V c main_v4 _ = V c main_v4 _
    refine congrArg (V c main_v4) (funext fun a => Fin.ext ?_)
    match a with
    | ⟨0, _⟩ => show win1_0.index t (0 : Fin 4) * 1 + 1 * 0 = win1_4.index t (0 : Fin 4) * 1 + 1 * (y 0).val
                have hy : (y 0).val < 1 := (y 0).isLt
                rw [e00]; omega
    | ⟨1, _⟩ => show win1_0.index t (1 : Fin 4) * 1 + 1 * 0 = win1_4.index t (1 : Fin 4) * 1 + 1 * (y 1).val
                have hy : (y 1).val < 1 := (y 1).isLt
                rw [e01]; omega
    | ⟨2, _⟩ => show win1_0.index t (2 : Fin 4) * 512 + 1 * (y 2).val = win1_4.index t (2 : Fin 4) * 512 + 1 * (y 2).val
                rw [e02]
    | ⟨3, _⟩ => show win1_0.index t (3 : Fin 4) * 256 + 1 * d'.val = d'.val
                rw [e03]; omega
  · intro s d'
    unfold iblk1
    rw [View.read_apply]
    show V c main_v8 _ = V c main_v8 _
    refine congrArg (V c main_v8) (funext fun a => Fin.ext ?_)
    match a with
    | ⟨0, _⟩ => show win1_1.index t (0 : Fin 2) * 4096 + 1 * s.val = s.val
                rw [e10]; omega
    | ⟨1, _⟩ => show win1_1.index t (1 : Fin 2) * 256 + 1 * d'.val = d'.val
                rw [e11]; omega
  · intro s d'
    unfold iblk1
    rw [View.read_apply]
    show V c main_v11 _ = V c main_v11 _
    refine congrArg (V c main_v11) (funext fun a => Fin.ext ?_)
    match a with
    | ⟨0, _⟩ => show win1_2.index t (0 : Fin 2) * 4096 + 1 * s.val = s.val
                rw [e20]; omega
    | ⟨1, _⟩ => show win1_2.index t (1 : Fin 2) * 256 + 1 * d'.val = d'.val
                rw [e21]; omega
  · unfold iblk1
    rw [View.read_apply]
    show V c main_v6 _ = V c main_v6 _
    refine congrArg (V c main_v6) (funext fun a => Fin.ext ?_)
    match a with
    | ⟨0, _⟩ => show win1_3.index t (0 : Fin 4) * 1 + 1 * 0 = win1_4.index t (0 : Fin 4) * 1 + 1 * (y 0).val
                have hy : (y 0).val < 1 := (y 0).isLt
                rw [e30]; omega
    | ⟨1, _⟩ => show win1_3.index t (1 : Fin 4) * 1 + 1 * 0 = win1_4.index t (1 : Fin 4) * 1 + 1 * (y 1).val
                have hy : (y 1).val < 1 := (y 1).isLt
                rw [e31]; omega
    | ⟨2, _⟩ => show win1_3.index t (2 : Fin 4) * 512 + 1 * (y 2).val = win1_4.index t (2 : Fin 4) * 512 + 1 * (y 2).val
                rw [e32]
    | ⟨3, _⟩ => show win1_3.index t (3 : Fin 4) * 256 + 1 * (y 3).val = win1_4.index t (3 : Fin 4) * 256 + 1 * (y 3).val
                rw [e33, e43]

/-- An index of the output array is in point t's block iff each coordinate is in the block's range on its axis. -/
theorem mem_blk (t : Fin cfg1.N) (i : S4x4x2048x256.Idx) :
    i ∈ ((cfg1.win 4).blk t).view.set ↔ ∀ a : Fin 4, win1_4.index t a * S1x1x512x256.size a ≤ (i a).val
      ∧ (i a).val < win1_4.index t a * S1x1x512x256.size a + S1x1x512x256.size a := by
  show i ∈ ((View.whole main_v12).slice (win1_4.rect t)).set ↔ _
  rw [View.set_slice_whole, Rect.mem_set_unit]
  exact Iff.rfl

/-- The 64 blocks cover the output array: row T of head h of batch b lies in the block of point (b, h, T / 512). -/
theorem cover (i : S4x4x2048x256.Idx) :
    ∃ t : Fin cfg1.N, (cfg1.win 4).flush t = true ∧ i ∈ ((cfg1.win 4).blk t).view.set := by
  have hi0 : (i 0).val < 4 := (i 0).isLt
  have hi1 : (i 1).val < 4 := (i 1).isLt
  have hi2 : (i 2).val < 2048 := (i 2).isLt
  have hi3 : (i 3).val < 256 := (i 3).isLt
  obtain ⟨t, ht⟩ := idx_onto ⟨(i 0).val, hi0⟩ ⟨(i 1).val, hi1⟩ ⟨(i 2).val / 512, by omega⟩
  have q0 : win1_4.index t (0 : Fin 4) = (i 0).val := congrFun ht 0
  have q1 : win1_4.index t (1 : Fin 4) = (i 1).val := congrFun ht 1
  have q2 : win1_4.index t (2 : Fin 4) = (i 2).val / 512 := congrFun ht 2
  have q3 : win1_4.index t (3 : Fin 4) = 0 := congrFun ht 3
  refine ⟨t, flush1_4 t, ?_⟩
  rw [mem_blk]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 512 ≤ (i 2).val ∧ (i 2).val < win1_4.index t (2 : Fin 4) * 512 + 512; omega
  | ⟨3, _⟩ => show win1_4.index t (3 : Fin 4) * 256 ≤ (i 3).val ∧ (i 3).val < win1_4.index t (3 : Fin 4) * 256 + 256; omega

/-- The output array after the region: the weighted sum over the query, key, value and residual arrays as the region
    finds them. -/
theorem array_eq (c : Dev nD) :
    (dat1 (F := Ideal) V c).arrAt 4 cfg1.N
      = Cert.Spec.attn (V c main_v4) (V c main_v8) (V c main_v11) (V c main_v6) :=
  (dat1 (F := Ideal) V c).arrAt_eq_of_cover 4 _ (fun t _ => flushed_eq V c t) cover

end Cert.KernelIdeal.Region1

end
-- ==== Proof.Layout.lean ====
/-
  The host-side layout operations of both programs, read at indices written by coordinates.

  A vector [1024] cast to a row [1, 1024] keeps its entries. Activations [4, 2048, 1024] cast to [4, 2048, 4, 256] put
  channel h·256 + d at (h, d), and the cast back reads (c / 256, c % 256); the transposition that swaps the time and head
  axes swaps those two coordinates. A matrix [1024, 1024] cast to [4096, 256] has entry (s, d) at flat position
  s·256 + d. As whole-array functions these are the specification's `rowOf`, `toHeads`, `rows` and `rowsT`.
-/
import proofs.«155917_j56023553409274_1_alg».proof.Proof.Spec
import Idealize.ShloMosaic.Lib.Pipeline.Value
import Idealize.ShloMosaic.Lib.ValueIdx

noncomputable section

namespace Cert.Layout

open Idealize.ShloMosaic Idealize.ShloMosaic.ValueIdx Cert.Spec

variable {α : Type}

/-- Activations with the channels split into heads, time before head. -/
abbrev ST : Shape := ⟨4, ![4, 2048, 4, 256]⟩

/-- A vector cast to a row reads, at (u, k), the vector at k. -/
theorem cast_vec_row (x : SV.Idx → α) (h : SV.ShapeCasts SR) (u : Fin 1) (k : Fin 1024) :
    shapeCast SR x h (ix2 u k) = x (ix1 k) :=
  shapeCast_apply x h _ _ (by
    have hu : u.val = 0 := by omega
    rw [Shape.rowMajor_val_one, Shape.rowMajor_val_two]
    show k.val = u.val * 1024 + k.val
    omega)

/-- Channels split into heads: (b, t, h, d) reads channel h·256 + d of row (b, t). -/
theorem cast_split (x : SX.Idx → α) (h : SX.ShapeCasts ST) (b : Fin 4) (t : Fin 2048) (hh : Fin 4) (d : Fin 256) :
    shapeCast ST x h (ix4 b t hh d) = x (ix3 b t (merge hh d)) :=
  shapeCast_apply x h _ _ (by
    rw [Shape.rowMajor_val_three, Shape.rowMajor_val_four]
    show (b.val * 2048 + t.val) * 1024 + (hh.val * 256 + d.val) = ((b.val * 2048 + t.val) * 4 + hh.val) * 256 + d.val
    omega)

/-- Heads merged back into channels: (b, t, c) reads head c / 256 at entry c % 256. -/
theorem cast_merge (y : ST.Idx → α) (h : ST.ShapeCasts SX) (b : Fin 4) (t : Fin 2048) (c : Fin 1024) :
    shapeCast SX y h (ix3 b t c) = y (ix4 b t (headOf c) (entryOf c)) :=
  shapeCast_apply y h _ _ (by
    rw [Shape.rowMajor_val_four, Shape.rowMajor_val_three]
    show ((b.val * 2048 + t.val) * 4 + c.val / 256) * 256 + c.val % 256 = (b.val * 2048 + t.val) * 1024 + c.val
    have hc := c.isLt
    omega)

/-- Time and head swapped, towards head before time. -/
theorem swap_to_heads (y : ST.Idx → α) (h : ST.Transposes [0, 2, 1, 3] SQ) (b hh : Fin 4) (t : Fin 2048) (d : Fin 256) :
    transpose SQ [0, 2, 1, 3] y h (ix4 b hh t d) = y (ix4 b t hh d) :=
  transpose_apply [0, 2, 1, 3] y h _ _ (fun a => match a with
    | ⟨0, _⟩ => rfl
    | ⟨1, _⟩ => rfl
    | ⟨2, _⟩ => rfl
    | ⟨3, _⟩ => rfl)

/-- Time and head swapped, towards time before head. -/
theorem swap_from_heads (z : SQ.Idx → α) (h : SQ.Transposes [0, 2, 1, 3] ST) (b : Fin 4) (t : Fin 2048) (hh : Fin 4) (d : Fin 256) :
    transpose ST [0, 2, 1, 3] z h (ix4 b t hh d) = z (ix4 b hh t d) :=
  transpose_apply [0, 2, 1, 3] z h _ _ (fun a => match a with
    | ⟨0, _⟩ => rfl
    | ⟨1, _⟩ => rfl
    | ⟨2, _⟩ => rfl
    | ⟨3, _⟩ => rfl)

/-- A matrix cast to [4096, 256]: (s, d) reads flat position s·256 + d. -/
theorem cast_rows (w : SW.Idx → α) (h : SW.ShapeCasts SK) (s : Fin 4096) (d : Fin 256) :
    shapeCast SK w h (ix2 s d) = w (ix2 (rowPos s d) (colPos s d)) :=
  shapeCast_apply w h _ _ (by
    rw [Shape.rowMajor_val_two, Shape.rowMajor_val_two]
    show (s.val * 256 + d.val) / 1024 * 1024 + (s.val * 256 + d.val) % 1024 = s.val * 256 + d.val
    omega)

/-- A matrix transposed. -/
theorem swap_matrix (w : SW.Idx → α) (h : SW.Transposes [1, 0] SW) (a b : Fin 1024) :
    transpose SW [1, 0] w h (ix2 a b) = w (ix2 b a) :=
  transpose_apply [1, 0] w h _ _ (fun ax => match ax with
    | ⟨0, _⟩ => rfl
    | ⟨1, _⟩ => rfl)

/-! ## The same as whole-array functions -/

theorem rowOf_eq (g : SV.Idx → EReal) (h : SV.ShapeCasts SR) : shapeCast SR g h = rowOf g :=
  funext fun i => by
    obtain ⟨u, k, rfl⟩ : ∃ (u : Fin 1) (k : Fin 1024), i = ix2 u k := ⟨i 0, i 1, eq_ix2 i⟩
    rw [cast_vec_row]; rfl

theorem toHeads_eq (x : SX.Idx → EReal) (h : SX.ShapeCasts ST) (h' : ST.Transposes [0, 2, 1, 3] SQ) :
    transpose SQ [0, 2, 1, 3] (shapeCast ST x h) h' = toHeads x :=
  funext fun i => by
    obtain ⟨b, hh, t, d, rfl⟩ : ∃ (b hh : Fin 4) (t : Fin 2048) (d : Fin 256), i = ix4 b hh t d := ⟨i 0, i 1, i 2, i 3, eq_ix4 i⟩
    rw [swap_to_heads, cast_split]; rfl

theorem rows_eq (w : SW.Idx → EReal) (h : SW.ShapeCasts SK) : shapeCast SK w h = rows w :=
  funext fun i => by
    obtain ⟨s, d, rfl⟩ : ∃ (s : Fin 4096) (d : Fin 256), i = ix2 s d := ⟨i 0, i 1, eq_ix2 i⟩
    rw [cast_rows]; rfl

theorem rowsT_eq (w : SW.Idx → EReal) (h : SW.Transposes [1, 0] SW) (h' : SW.ShapeCasts SK) :
    shapeCast SK (transpose SW [1, 0] w h) h' = rowsT w :=
  funext fun i => by
    obtain ⟨s, d, rfl⟩ : ∃ (s : Fin 4096) (d : Fin 256), i = ix2 s d := ⟨i 0, i 1, eq_ix2 i⟩
    rw [cast_rows, swap_matrix]; rfl

/-- Heads merged back: the array [4, 4, 2048, 256] read at (b, t, c). -/
theorem fromHeads_apply (z : SQ.Idx → EReal) (h : SQ.Transposes [0, 2, 1, 3] ST) (h' : ST.ShapeCasts SX)
    (b : Fin 4) (t : Fin 2048) (c : Fin 1024) :
    shapeCast SX (transpose ST [0, 2, 1, 3] z h) h' (ix3 b t c) = z (ix4 b (headOf c) t (entryOf c)) := by
  rw [cast_merge, swap_from_heads]

end Cert.Layout

end
-- ==== Proof.Glue.lean ====
/-
  The kernel program's result as a function of its arguments.

  @main is: two casts (gain and bias to rows), the layer-norm region, nine layout operations (the normalized activations
  and the residual split by head; the two weight matrices read as key and value rows, each narrowed to 16 bits, which
  over the extended reals changes nothing), the attention region, and two layout operations that merge the heads back.
  Following the buffer contents through these five stretches, with each region's output array the whole-array function
  found for it, the result buffer ends at the specification's function of the five arguments.
-/
import proofs.«155917_j56023553409274_1_alg».proof.Proof.Gen.KernelIdeal.Frame
import proofs.«155917_j56023553409274_1_alg».proof.Proof.Region0
import proofs.«155917_j56023553409274_1_alg».proof.Proof.Region1
import proofs.«155917_j56023553409274_1_alg».proof.Proof.Layout
import proofs.«155917_j56023553409274_1_alg».proof.Proof.Spec
import Idealize.ShloMosaic.Lib.StableHlo.Run
import Idealize.ShloMosaic.Lib.Pipeline.Value

set_option maxRecDepth 16384

noncomputable section

namespace Cert.KernelIdeal.Glue

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-! ## Before the layer-norm region -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results

/-- The gain as a row. -/
theorem W1_v0 (c : Dev nD) : W1 m ρ c (Proc.devRef .tc main_v0) = rowOf (m ((c : Thread nD τ).loc main_arg3)) := by
  show StableHlo.after hostOps0 (W0 m ρ c) (Proc.devRef .tc main_v0) = _
  after_results
  exact Cert.Layout.rowOf_eq _ _
/-- The bias as a row. -/
theorem W1_v1 (c : Dev nD) : W1 m ρ c (Proc.devRef .tc main_v1) = rowOf (m ((c : Thread nD τ).loc main_arg4)) := by
  show StableHlo.after hostOps0 (W0 m ρ c) (Proc.devRef .tc main_v1) = _
  after_results
  exact Cert.Layout.rowOf_eq _ _

/-! ## After the layer-norm region -/

/-- The normalized activations. -/
abbrev normed (c : Dev nD) : SX.Idx → EReal :=
  ln (m ((c : Thread nD τ).loc main_arg0)) (rowOf (m ((c : Thread nD τ).loc main_arg3))) (rowOf (m ((c : Thread nD τ).loc main_arg4)))

theorem W2_v2 (c : Dev nD) : W2 m ρ c (Proc.devRef .tc main_v2) = normed m c :=
  (W2_arr m ρ c 3).trans ((Cert.KernelIdeal.Region0.array_eq (V1 m ρ) c).trans (by
    show ln (W1 m ρ c (Proc.devRef .tc main_arg0)) (W1 m ρ c (Proc.devRef .tc main_v0)) (W1 m ρ c (Proc.devRef .tc main_v1)) = _
    rw [W1_arg0, W1_v0, W1_v1]))

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)

/-! ## Before the attention region -/

/-- The queries: the normalized activations split by head. -/
theorem W3_v4 (c : Dev nD) : W3 m ρ c (Proc.devRef .tc main_v4) = toHeads (normed m c) := by
  show StableHlo.after hostOps1 (W2 m ρ c) (Proc.devRef .tc main_v4) = _
  after_results
  rw [W2_v2]
  exact Cert.Layout.toHeads_eq _ _ _
/-- The residual split by head. -/
theorem W3_v6 (c : Dev nD) : W3 m ρ c (Proc.devRef .tc main_v6) = toHeads (m ((c : Thread nD τ).loc main_arg0)) := by
  show StableHlo.after hostOps1 (W2 m ρ c) (Proc.devRef .tc main_v6) = _
  after_results
  rw [W2_arg0]
  exact Cert.Layout.toHeads_eq _ _ _
/-- The key rows. -/
theorem W3_v8 (c : Dev nD) : W3 m ρ c (Proc.devRef .tc main_v8) = rows (m ((c : Thread nD τ).loc main_arg1)) := by
  show StableHlo.after hostOps1 (W2 m ρ c) (Proc.devRef .tc main_v8) = _
  after_results
  rw [W2_arg1]
  exact Cert.Layout.rows_eq _ _
/-- The value rows. -/
theorem W3_v11 (c : Dev nD) : W3 m ρ c (Proc.devRef .tc main_v11) = rowsT (m ((c : Thread nD τ).loc main_arg2)) := by
  show StableHlo.after hostOps1 (W2 m ρ c) (Proc.devRef .tc main_v11) = _
  after_results
  rw [W2_arg2]
  exact Cert.Layout.rowsT_eq _ _ _

/-! ## After the attention region, and the result -/

theorem W4_v12 (c : Dev nD) : W4 m ρ c (Proc.devRef .tc main_v12)
    = attn (toHeads (normed m c)) (rows (m ((c : Thread nD τ).loc main_arg1))) (rowsT (m ((c : Thread nD τ).loc main_arg2)))
        (toHeads (m ((c : Thread nD τ).loc main_arg0))) :=
  (W4_arr m ρ c 4).trans ((Cert.KernelIdeal.Region1.array_eq (V3 m ρ) c).trans (by
    show attn (W3 m ρ c (Proc.devRef .tc main_v4)) (W3 m ρ c (Proc.devRef .tc main_v8)) (W3 m ρ c (Proc.devRef .tc main_v11))
      (W3 m ρ c (Proc.devRef .tc main_v6)) = _
    rw [W3_v4, W3_v8, W3_v11, W3_v6]))

/-- The result buffer at the end of @main is the specification's function of the five arguments. -/
theorem result_eq (c : Dev nD) : W5 m ρ c (Proc.devRef .tc main_v14)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps2 (W4 m ρ c) (Proc.devRef .tc main_v14) = _
  after_results
  rw [W4_v12]
  funext j
  obtain ⟨b, t, cc, rfl⟩ : ∃ (b : Fin 4) (t : Fin 2048) (cc : Fin 1024), j = ix3 b t cc := ⟨j 0, j 1, j 2, eq_ix3 j⟩
  refine (Cert.Layout.fromHeads_apply _ _ _ b t cc).trans ?_
  rw [attn_apply, result_apply]

end Cert.KernelIdeal.Glue

end
-- ==== Proof.RefValue.lean ====
/-
  The reference's result, stage by stage, is the specification's function of the five arguments.
-/
import proofs.«155917_j56023553409274_1_alg».proof.Proof.Gen.ReferenceIdeal.Read
import proofs.«155917_j56023553409274_1_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## The composed index functions at coordinates -/

/-- The row sum's operand index, read through the broadcast that keeps the row's axis: row (b, t), entry k. -/
theorem idx_v0_v1 (b : Fin 4) (t : Fin 2048) (u : Fin 1) (k : Fin 1024) :
    idx_main_v0 (idx_main_v1 (ix3 b t u)) k = ix3 b t k :=
  funext fun a => Fin.ext (by match a with | ⟨0, _⟩ => rfl | ⟨1, _⟩ => rfl | ⟨2, _⟩ => rfl)

/-- The same for the second row sum. -/
theorem idx_v7_v8 (b : Fin 4) (t : Fin 2048) (u : Fin 1) (k : Fin 1024) :
    idx_main_v7 (idx_main_v8 (ix3 b t u)) k = ix3 b t k :=
  funext fun a => Fin.ext (by match a with | ⟨0, _⟩ => rfl | ⟨1, _⟩ => rfl | ⟨2, _⟩ => rfl)

/-- A per-row value broadcast along the channels is read at the row's one entry. -/
theorem idx_v4 (b : Fin 4) (t : Fin 2048) (c : Fin 1024) :
    idx_main_v4 (ix3 b t c) = ix3 b t (0 : Fin 1) :=
  funext fun a => Fin.ext (by match a with | ⟨0, _⟩ => rfl | ⟨1, _⟩ => rfl | ⟨2, _⟩ => rfl)

theorem idx_v11 (b : Fin 4) (t : Fin 2048) (c : Fin 1024) :
    idx_main_v11 (ix3 b t c) = ix3 b t (0 : Fin 1) :=
  funext fun a => Fin.ext (by match a with | ⟨0, _⟩ => rfl | ⟨1, _⟩ => rfl | ⟨2, _⟩ => rfl)

theorem idx_v16 (b : Fin 4) (t : Fin 2048) (c : Fin 1024) :
    idx_main_v16 (ix3 b t c) = ix3 b t (0 : Fin 1) :=
  funext fun a => Fin.ext (by match a with | ⟨0, _⟩ => rfl | ⟨1, _⟩ => rfl | ⟨2, _⟩ => rfl)

/-- The gain, broadcast from a vector to the whole array, is read at the channel. -/
theorem idx_v18_v19 (b : Fin 4) (t : Fin 2048) (c : Fin 1024) :
    idx_main_v18 (idx_main_v19 (ix3 b t c)) = ix1 c :=
  funext fun a => Fin.ext (by match a with | ⟨0, _⟩ => rfl)

/-- The bias likewise. -/
theorem idx_v21_v22 (b : Fin 4) (t : Fin 2048) (c : Fin 1024) :
    idx_main_v21 (idx_main_v22 (ix3 b t c)) = ix1 c :=
  funext fun a => Fin.ext (by match a with | ⟨0, _⟩ => rfl)

/-! ## Layer norm, stage by stage -/

/-- The mean of row (b, t). -/
theorem v3_eq (x0 : (⟨S4x2048x1024, .f32⟩ : BufTy).Contents (Elt Ideal)) (b : Fin 4) (t : Fin 2048) (u : Fin 1) :
    val_main_v3 (F := Ideal) x0 (ix3 b t u) = Spec.rowMean (fun k => x0 (ix3 b t k)) := by
  rw [val_main_v3_apply, val_main_v1_apply, val_main_v0_apply, val_main_v2_apply, val_main_cst_apply, val_main_cst_0_apply]
  simp only [idx_v0_v1, Ideal.hostDivf_def, Ideal.ofBits_def, Ideal.ofBits_zero_f32, zero_add]
  rfl

/-- The deviation from the mean at (b, t, c). -/
theorem v5_eq (x0 : (⟨S4x2048x1024, .f32⟩ : BufTy).Contents (Elt Ideal)) (b : Fin 4) (t : Fin 2048) (c : Fin 1024) :
    val_main_v5 (F := Ideal) x0 (ix3 b t c) = x0 (ix3 b t c) - Spec.rowMean (fun k => x0 (ix3 b t k)) := by
  rw [val_main_v5_apply, val_main_v4_apply, idx_v4, v3_eq, Ideal.subf_def]

/-- The same deviation, as the program computes it a second time. -/
theorem v12_eq (x0 : (⟨S4x2048x1024, .f32⟩ : BufTy).Contents (Elt Ideal)) (b : Fin 4) (t : Fin 2048) (c : Fin 1024) :
    val_main_v12 (F := Ideal) x0 (ix3 b t c) = x0 (ix3 b t c) - Spec.rowMean (fun k => x0 (ix3 b t k)) := by
  rw [val_main_v12_apply, val_main_v11_apply, idx_v11, v3_eq, Ideal.subf_def]

/-- The variance of row (b, t). -/
theorem v10_eq (x0 : (⟨S4x2048x1024, .f32⟩ : BufTy).Contents (Elt Ideal)) (b : Fin 4) (t : Fin 2048) (u : Fin 1) :
    val_main_v10 (F := Ideal) x0 (ix3 b t u) = Spec.rowVar (fun k => x0 (ix3 b t k)) := by
  rw [val_main_v10_apply, val_main_v8_apply, val_main_v7_apply, val_main_v9_apply, val_main_cst_1_apply, val_main_cst_2_apply]
  simp only [idx_v7_v8, val_main_v6_apply, v5_eq, Ideal.hostDivf_def, Ideal.mulf_def, Ideal.ofBits_def, Ideal.ofBits_zero_f32, zero_add]
  rfl

/-- The reciprocal standard deviation of row (b, t). -/
theorem v15_eq (x0 : (⟨S4x2048x1024, .f32⟩ : BufTy).Contents (Elt Ideal)) (b : Fin 4) (t : Fin 2048) (u : Fin 1) :
    val_main_v15 (F := Ideal) x0 (ix3 b t u)
      = Ideal.rsqrt (Spec.rowVar (fun k => x0 (ix3 b t k)) + Ideal.ofBits .f32 0x3727C5AC#32) := by
  rw [val_main_v15_apply, val_main_v14_apply, v10_eq, val_main_v13_apply, val_main_cst_3_apply,
    Ideal.hostUnary_rsqrt_def, Ideal.addf_def, Ideal.ofBits_def]

/-- Layer norm at (b, t, c). -/
theorem v23_eq (x0 : (⟨S4x2048x1024, .f32⟩ : BufTy).Contents (Elt Ideal)) (x3 x4 : (⟨S1024, .f32⟩ : BufTy).Contents (Elt Ideal))
    (b : Fin 4) (t : Fin 2048) (c : Fin 1024) :
    val_main_v23 (F := Ideal) x0 x3 x4 (ix3 b t c) = Spec.lnAt x0 (Spec.rowOf x3) (Spec.rowOf x4) b t c := by
  rw [val_main_v23_apply, val_main_v20_apply, val_main_v17_apply, v12_eq, val_main_v16_apply, idx_v16, v15_eq,
    val_main_v19_apply, val_main_v18_apply, idx_v18_v19, val_main_v22_apply, val_main_v21_apply, idx_v21_v22,
    Ideal.addf_def, Ideal.mulf_def, Ideal.mulf_def]
  rfl

/-! ## Heads and the two weight matrices -/

/-- The head split [4,2048,4,256] → [4,4,2048,256] swaps time and head. -/
theorem idx_v25 (b h : Fin 4) (t : Fin 2048) (d : Fin 256) :
    idx_main_v25 (ix4 b h t d) = ix4 b t h d :=
  funext fun a => Fin.ext (by match a with | ⟨0, _⟩ => rfl | ⟨1, _⟩ => rfl | ⟨2, _⟩ => rfl | ⟨3, _⟩ => rfl)

/-- The reshape [4,2048,1024] → [4,2048,4,256]: entry d of head h is channel h·256 + d. -/
theorem idx_v24 (b : Fin 4) (t : Fin 2048) (h : Fin 4) (d : Fin 256) :
    idx_main_v24 (ix4 b t h d) = ix3 b t (Spec.merge h d) :=
  funext fun a => Fin.ext (by
    have hb := b.isLt; have ht := t.isLt; have hh := h.isLt; have hd := d.isLt
    match a with
    | ⟨0, _⟩ => show (((b.val * 2048 + t.val) * 4 + h.val) * 256 + d.val) / 2097152 = b.val; omega
    | ⟨1, _⟩ => show (((b.val * 2048 + t.val) * 4 + h.val) * 256 + d.val) / 1024 % 2048 = t.val; omega
    | ⟨2, _⟩ => show (((b.val * 2048 + t.val) * 4 + h.val) * 256 + d.val) % 1024 = h.val * 256 + d.val; omega)

/-- A matrix read as [4096, 256]: entry (s, d) sits at flat position s·256 + d. -/
theorem idx_v26 (s : Fin 4096) (d : Fin 256) :
    idx_main_v26 (ix2 s d) = ix2 (Spec.rowPos s d) (Spec.colPos s d) :=
  funext fun a => Fin.ext (by match a with | ⟨0, _⟩ => rfl | ⟨1, _⟩ => rfl)

/-- The transpose read the same way swaps the two positions. -/
theorem idx_v27_v28 (s : Fin 4096) (d : Fin 256) :
    idx_main_v27 (idx_main_v28 (ix2 s d)) = ix2 (Spec.colPos s d) (Spec.rowPos s d) :=
  funext fun a => Fin.ext (by match a with | ⟨0, _⟩ => rfl | ⟨1, _⟩ => rfl)

/-- The score contraction reads the query row (b, h, t) at entry k … -/
theorem lidx_v29 (b h : Fin 4) (t : Fin 2048) (s : Fin 4096) (k : Fin 256) :
    lidx_main_v29 (ix4 b h t s) k = ix4 b h t k :=
  funext fun a => Fin.ext (by match a with | ⟨0, _⟩ => rfl | ⟨1, _⟩ => rfl | ⟨2, _⟩ => rfl | ⟨3, _⟩ => rfl)

/-- … against key row s at entry k. -/
theorem ridx_v29 (b h : Fin 4) (t : Fin 2048) (s : Fin 4096) (k : Fin 256) :
    ridx_main_v29 (ix4 b h t s) k = ix2 s k :=
  funext fun a => Fin.ext (by match a with | ⟨0, _⟩ => rfl | ⟨1, _⟩ => rfl)

/-- The output contraction reads the weight of key row k for the query row (b, h, t) … -/
theorem lidx_v32 (b h : Fin 4) (t : Fin 2048) (d : Fin 256) (k : Fin 4096) :
    lidx_main_v32 (ix4 b h t d) k = ix4 b h t k :=
  funext fun a => Fin.ext (by match a with | ⟨0, _⟩ => rfl | ⟨1, _⟩ => rfl | ⟨2, _⟩ => rfl | ⟨3, _⟩ => rfl)

/-- … against value row k at entry d. -/
theorem ridx_v32 (b h : Fin 4) (t : Fin 2048) (d : Fin 256) (k : Fin 4096) :
    ridx_main_v32 (ix4 b h t d) k = ix2 k d :=
  funext fun a => Fin.ext (by match a with | ⟨0, _⟩ => rfl | ⟨1, _⟩ => rfl)

/-- Merging the heads back: channel c is entry c % 256 of head c / 256. -/
theorem idx_v33_v34 (b : Fin 4) (t : Fin 2048) (c : Fin 1024) :
    idx_main_v33 (idx_main_v34 (ix3 b t c)) = ix4 b (Spec.headOf c) t (Spec.entryOf c) :=
  funext fun a => Fin.ext (by
    have hb := b.isLt; have ht := t.isLt; have hc := c.isLt
    match a with
    | ⟨0, _⟩ => show ((b.val * 2048 + t.val) * 1024 + c.val) / 2097152 = b.val; omega
    | ⟨1, _⟩ => show ((b.val * 2048 + t.val) * 1024 + c.val) / 256 % 4 = c.val / 256; omega
    | ⟨2, _⟩ => show ((b.val * 2048 + t.val) * 1024 + c.val) / 1024 % 2048 = t.val; omega
    | ⟨3, _⟩ => show ((b.val * 2048 + t.val) * 1024 + c.val) % 256 = c.val % 256; omega)

/-- The queries: layer norm viewed by head. -/
theorem v25_eq (x0 : (⟨S4x2048x1024, .f32⟩ : BufTy).Contents (Elt Ideal)) (x3 x4 : (⟨S1024, .f32⟩ : BufTy).Contents (Elt Ideal))
    (b h : Fin 4) (t : Fin 2048) (d : Fin 256) :
    val_main_v25 (F := Ideal) x0 x3 x4 (ix4 b h t d)
      = Spec.toHeads (Spec.ln x0 (Spec.rowOf x3) (Spec.rowOf x4)) (ix4 b h t d) := by
  rw [val_main_v25_apply, idx_v25, val_main_v24_apply, idx_v24, v23_eq]
  rfl

/-- The keys: the first weight matrix read as [4096, 256]. -/
theorem v26_eq (x1 : (⟨S1024x1024, .f32⟩ : BufTy).Contents (Elt Ideal)) (s : Fin 4096) (d : Fin 256) :
    val_main_v26 (F := Ideal) x1 (ix2 s d) = Spec.rows x1 (ix2 s d) := by
  rw [val_main_v26_apply, idx_v26]
  rfl

/-- The values: the second weight matrix's transpose read as [4096, 256]. -/
theorem v28_eq (x2 : (⟨S1024x1024, .f32⟩ : BufTy).Contents (Elt Ideal)) (s : Fin 4096) (d : Fin 256) :
    val_main_v28 (F := Ideal) x2 (ix2 s d) = Spec.rowsT x2 (ix2 s d) := by
  rw [val_main_v28_apply, val_main_v27_apply, idx_v27_v28]
  rfl

/-! ## Scores, weights, output -/

/-- The score of query row (b, h, t) against key row s. -/
theorem v29_eq (x0 : (⟨S4x2048x1024, .f32⟩ : BufTy).Contents (Elt Ideal)) (x1 : (⟨S1024x1024, .f32⟩ : BufTy).Contents (Elt Ideal))
    (x3 x4 : (⟨S1024, .f32⟩ : BufTy).Contents (Elt Ideal)) (b h : Fin 4) (t : Fin 2048) (s : Fin 4096) :
    val_main_v29 (F := Ideal) x0 x1 x3 x4 (ix4 b h t s)
      = Spec.rowScore (fun d' => Spec.toHeads (Spec.ln x0 (Spec.rowOf x3) (Spec.rowOf x4)) (ix4 b h t d')) (Spec.rows x1) s := by
  rw [val_main_v29_apply]
  simp only [lidx_v29, ridx_v29, v25_eq, v26_eq]
  rfl

/-- Its weight: the square of its positive part. -/
theorem v31_eq (x0 : (⟨S4x2048x1024, .f32⟩ : BufTy).Contents (Elt Ideal)) (x1 : (⟨S1024x1024, .f32⟩ : BufTy).Contents (Elt Ideal))
    (x3 x4 : (⟨S1024, .f32⟩ : BufTy).Contents (Elt Ideal)) (b h : Fin 4) (t : Fin 2048) (s : Fin 4096) :
    val_main_v31 (F := Ideal) x0 x1 x3 x4 (ix4 b h t s)
      = max (Spec.rowScore (fun d' => Spec.toHeads (Spec.ln x0 (Spec.rowOf x3) (Spec.rowOf x4)) (ix4 b h t d')) (Spec.rows x1) s)
            (Ideal.ofBits .f32 0x00000000#32)
        * max (Spec.rowScore (fun d' => Spec.toHeads (Spec.ln x0 (Spec.rowOf x3) (Spec.rowOf x4)) (ix4 b h t d')) (Spec.rows x1) s)
            (Ideal.ofBits .f32 0x00000000#32) := by
  rw [val_main_v31_apply, val_main_v30_apply, v29_eq, val_main_call0_v0_apply, val_main_call0_cst_apply,
    Ideal.mulf_def, Ideal.maximumf_def, Ideal.ofBits_def]

/-- The weighted sum of the value rows at entry d. -/
theorem v32_eq (x0 : (⟨S4x2048x1024, .f32⟩ : BufTy).Contents (Elt Ideal)) (x1 x2 : (⟨S1024x1024, .f32⟩ : BufTy).Contents (Elt Ideal))
    (x3 x4 : (⟨S1024, .f32⟩ : BufTy).Contents (Elt Ideal)) (b h : Fin 4) (t : Fin 2048) (d : Fin 256) :
    val_main_v32 (F := Ideal) x0 x1 x2 x3 x4 (ix4 b h t d)
      = ∑ s : Fin 4096,
          (max (Spec.rowScore (fun d' => Spec.toHeads (Spec.ln x0 (Spec.rowOf x3) (Spec.rowOf x4)) (ix4 b h t d')) (Spec.rows x1) s)
              (Ideal.ofBits .f32 0x00000000#32)
            * max (Spec.rowScore (fun d' => Spec.toHeads (Spec.ln x0 (Spec.rowOf x3) (Spec.rowOf x4)) (ix4 b h t d')) (Spec.rows x1) s)
              (Ideal.ofBits .f32 0x00000000#32))
          * Spec.rowsT x2 (ix2 s d) := by
  rw [val_main_v32_apply]
  simp only [lidx_v32, ridx_v32, v31_eq, v28_eq]

/-! ## The result -/

theorem ref_eq (x0 : Cert.Spec.SX.Idx → EReal) (x1 x2 : Cert.Spec.SW.Idx → EReal) (x3 x4 : Cert.Spec.SV.Idx → EReal) :
    val_main_v35 (F := Ideal) x0 x1 x2 x3 x4 = Cert.Spec.result x0 x1 x2 x3 x4 := by
  funext j
  obtain ⟨b, t, c, rfl⟩ : ∃ (b : Fin 4) (t : Fin 2048) (c : Fin 1024), j = ix3 b t c := ⟨j 0, j 1, j 2, eq_ix3 j⟩
  rw [val_main_v35_apply, val_main_v34_apply, val_main_v33_apply, idx_v33_v34, v32_eq, Spec.result_apply, Ideal.addf_def]
  unfold Spec.attnAt Spec.attnRow
  rw [Spec.toHeads_apply x0, Spec.merge_head_entry]

end Cert.ReferenceIdeal.RefValue

end
-- ==== Proof.lean ====
/-
  The certificate of a two-kernel program — a layer-norm kernel, then a kernel that scores each normalized row, split into
  four heads of 256 entries, against 4096 key rows cut from one weight matrix, squares the positive part of each score
  and sums the value rows cut from the transpose of a second weight matrix with those weights, adding the residual —
  against the same computation written with whole-array operations.

  Over the extended reals the kernel's narrowing of its matrix operands to 16 bits changes nothing, both sides sum the
  same products over the same full axes (256 entries for a score, 4096 rows for the weighted sum, 1024 channels for a
  mean), divide by the same 1024 and add the same ε, so no algebraic law beyond the definitions is needed and the
  precondition is not used: both results are one function of the five arguments (Proof/Spec.lean).

  The kernel program's run with its result buffer named is Proof/RunNamed.lean; what each region leaves in its output
  array is Proof/Region0.lean and Proof/Region1.lean over the bodies' stored values read at an index
  (Proof/LnBody.lean, Proof/AttnBody.lean); the layout operations between the regions are Proof/Layout.lean and the
  result buffer followed through @main Proof/Glue.lean; the reference, stage by stage, is Proof/RefValue.lean.
-/
import proofs.«155917_j56023553409274_1_alg».proof.Defs
import proofs.«155917_j56023553409274_1_alg».proof.Proof.Gen.Kernel
import proofs.«155917_j56023553409274_1_alg».proof.Proof.Gen.Kernel.Skeleton
import proofs.«155917_j56023553409274_1_alg».proof.Proof.Gen.Kernel.Launch
import proofs.«155917_j56023553409274_1_alg».proof.Proof.Gen.Kernel.Points
import proofs.«155917_j56023553409274_1_alg».proof.Proof.Gen.Kernel.Frame
import proofs.«155917_j56023553409274_1_alg».proof.Proof.Gen.KernelIdeal
import proofs.«155917_j56023553409274_1_alg».proof.Proof.Gen.KernelIdeal.Skeleton
import proofs.«155917_j56023553409274_1_alg».proof.Proof.Gen.KernelIdeal.Launch
import proofs.«155917_j56023553409274_1_alg».proof.Proof.Gen.KernelIdeal.Points
import proofs.«155917_j56023553409274_1_alg».proof.Proof.Gen.KernelIdeal.Frame
import proofs.«155917_j56023553409274_1_alg».proof.Proof.Gen.ReferenceIdeal
import proofs.«155917_j56023553409274_1_alg».proof.Proof.Gen.Pre_finite_inputs
import proofs.«155917_j56023553409274_1_alg».proof.Proof.Gen.ReferenceIdeal.Run
import proofs.«155917_j56023553409274_1_alg».proof.Proof.Gen.ReferenceIdeal.Read
import proofs.«155917_j56023553409274_1_alg».proof.Proof.RunNamed
import proofs.«155917_j56023553409274_1_alg».proof.Proof.Glue
import proofs.«155917_j56023553409274_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification's function of the arguments in their result buffers. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Glue.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
